-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S640000x64 : Shape := ⟨2, ![640000, 64]⟩
abbrev S16x64 : Shape := ⟨2, ![16, 64]⟩
abbrev S640000 : Shape := ⟨1, ![640000]⟩
abbrev S192x64 : Shape := ⟨2, ![192, 64]⟩
abbrev S64 : Shape := ⟨1, ![64]⟩
abbrev S64x64 : Shape := ⟨2, ![64, 64]⟩
abbrev S_ : Shape := ⟨0, ![]⟩

class Facts : Prop where
  bcast_S_S640000x64 : S_.BroadcastsInDim S640000x64 (![] : Fin 0 → Fin S640000x64.rank)
  reducesTo_S640000x64_S_d0_1 : S640000x64.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S192x64 .f32) (main_arg6 : FVec F S64 .f32) (main_arg7 : FVec F S64x64 .f32) (main_arg8 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S192x64 .f32 := Host.absf main_arg5
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_v33

def fn {F : FTy → Type} [FloatOps F] (main_arg0 : FVec F S640000x64 .f32) (main_arg1 : FVec F S640000x64 .f32) (main_arg2 : FVec F S640000x64 .f32) (main_arg3 : FVec F S16x64 .f32) (main_arg4 : IVec S640000 32) (main_arg5 : FVec F S192x64 .f32) (main_arg6 : FVec F S64 .f32) (main_arg7 : FVec F S64x64 .f32) (main_arg8 : FVec F S64 .f32) : IVec S_ 1 :=
  let main_v0 : FVec F S640000x64 .f32 := Host.absf main_arg0
  let main_cst : FVec F S_ .f32 := constant S_ .f32 0x7F800000#32
  let main_v1 : FVec F S640000x64 .f32 := broadcastInDim S640000x64 ![] bcast_S_S640000x64 main_cst
  let main_v2 : IVec S640000x64 1 := cmpf .olt main_v0 main_v1
  let main_c : IVec S_ 1 := constantI S_ 1 1#1
  let main_v3 : IVec S_ 1 := (fun x v => Host.reduce IntOp.andi x v reducesTo_S640000x64_S_d0_1 h_S_) main_v2 main_c
  let main_v4 : FVec F S640000x64 .f32 := Host.absf main_arg1
  let main_cst_0 : FVec F S_ .f32 := constant S_ .f32 0x7F800000#32
  let main_v5 : FVec F S640000x64 .f32 := broadcastInDim S640000x64 ![] bcast_S_S640000x64 main_cst_0
  let main_v6 : IVec S640000x64 1 := cmpf .olt main_v4 main_v5
  let main_c_1 : IVec S_ 1 := constantI S_ 1 1#1
  let main_v7 : IVec S_ 1 := (fun x v => Host.reduce IntOp.andi x v reducesTo_S640000x64_S_d0_1 h_S_) main_v6 main_c_1
  let main_v8 : IVec S_ 1 := andi main_v3 main_v7
  let main_v9 : FVec F S640000x64 .f32 := Host.absf main_arg2
  let main_cst_2 : FVec F S_ .f32 := constant S_ .f32 0x7F800000#32
  let main_v10 : FVec F S640000x64 .f32 := broadcastInDim S640000x64 ![] bcast_S_S640000x64 main_cst_2
  let main_v11 : IVec S640000x64 1 := cmpf .olt main_v9 main_v10
  let main_c_3 : IVec S_ 1 := constantI S_ 1 1#1
  let main_v12 : IVec S_ 1 := (fun x v => Host.reduce IntOp.andi x v reducesTo_S640000x64_S_d0_1 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_arg6 main_arg7 main_arg8 main_v13 main_v16
-- ==== Kernel.lean ====
abbrev S640000x64 : Shape := ⟨2, ![640000, 64]⟩
abbrev S16x64 : Shape := ⟨2, ![16, 64]⟩
abbrev S640000 : Shape := ⟨1, ![640000]⟩
abbrev S192x64 : Shape := ⟨2, ![192, 64]⟩
abbrev S64 : Shape := ⟨1, ![64]⟩
abbrev S64x64 : Shape := ⟨2, ![64, 64]⟩
abbrev S1x64 : Shape := ⟨2, ![1, 64]⟩
abbrev S4000x64 : Shape := ⟨2, ![4000, 64]⟩
abbrev S4000x192 : Shape := ⟨2, ![4000, 192]⟩

abbrev nBuf : Space → Nat
  | .hbm => 12
  | .vmem => 12
  | .smem => 0
  | _ => 0

abbrev bufTy : (tb : Table) → Fin (tcTables nBuf tb) → BufTy
  | .hbm, ⟨0, _⟩ => ⟨S640000x64, .f32⟩
  | .hbm, ⟨1, _⟩ => ⟨S640000x64, .f32⟩
  | .hbm, ⟨2, _⟩ => ⟨S640000x64, .f32⟩
  | .hbm, ⟨3, _⟩ => ⟨S16x64, .f32⟩
  | .hbm, ⟨4, _⟩ => ⟨S640000, .i32⟩
  | .hbm, ⟨5, _⟩ => ⟨S192x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x64, .f32⟩
  | .hbm, ⟨10, _⟩ => ⟨S1x64, .f32⟩
  | .hbm, ⟨11, _⟩ => ⟨S640000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S192x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S4000x64, .f32⟩
  | .local _ .vmem, ⟨11, _⟩ => ⟨S4000x64, .f32⟩
  | _, _ => ⟨S640000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  concatenates_S4000x64_S4000x64_S4000x64_S4000x192_d1 : Shape.Concatenates [S4000x64, S4000x64, S4000x64] S4000x192 1
  bitsLt_bf16_f32 : FTy.bits .bf16 < FTy.bits .f32
  inb_S192x64_S192x64_0_0 : ∀ a, (![0, 0] : Fin 2 → Nat) a + S192x64.size a ≤ S192x64.size a
  h_S192x64 : 0 < S192x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  dot_S4000x192_S192x64_S4000x64_1_0_0_1_n_n_wf : DotDims.WF S4000x192 S192x64 S4000x64 [1] [0] [0] [1] [] []
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S640000x64.size a
  hwx0_0 : ∀ i : grid0.Coords, EltTy.bits .f32 = 32 ∨ (Rect.block (s := S640000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S640000x64.size a
  hwx0_1 : ∀ i : grid0.Coords, EltTy.bits .f32 = 32 ∨ (Rect.block (s := S640000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S640000x64.size a
  hwx0_2 : ∀ i : grid0.Coords, EltTy.bits .f32 = 32 ∨ (Rect.block (s := S640000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x64.size a ≤ S192x64.size a
  hwx0_3 : ∀ i : grid0.Coords, EltTy.bits .f32 = 32 ∨ (Rect.block (s := S192x64) S192x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S640000x64.size a
  hwx0_7 : ∀ i : grid0.Coords, EltTy.bits .f32 = 32 ∨ (Rect.block (s := S640000x64) S4000x64.size (cc0_transform_7 i) (hinb0_7 i)).WholeWords (EltTy.packing .f32)

variable [Facts₀]

def dot_S4000x192_S192x64_S4000x64_1_0_0_1_n_n : DotDims S4000x192 S192x64 S4000x64 where
  lhsContracting := [1]
  rhsContracting := [0]
  lhsNonContracting := [0]
  rhsNonContracting := [1]
  lhsBatch := []
  rhsBatch := []
  wf := dot_S4000x192_S192x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S192x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S4000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S640000x64 : Shape := ⟨2, ![640000, 64]⟩
abbrev S16x64 : Shape := ⟨2, ![16, 64]⟩
abbrev S640000 : Shape := ⟨1, ![640000]⟩
abbrev S192x64 : Shape := ⟨2, ![192, 64]⟩
abbrev S64 : Shape := ⟨1, ![64]⟩
abbrev S64x64 : Shape := ⟨2, ![64, 64]⟩
abbrev S640000x192 : Shape := ⟨2, ![640000, 192]⟩
abbrev S1x64 : Shape := ⟨2, ![1, 64]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S640000x64, .f32⟩
  | .hbm, ⟨1, _⟩ => ⟨S640000x64, .f32⟩
  | .hbm, ⟨2, _⟩ => ⟨S640000x64, .f32⟩
  | .hbm, ⟨3, _⟩ => ⟨S16x64, .f32⟩
  | .hbm, ⟨4, _⟩ => ⟨S640000, .i32⟩
  | .hbm, ⟨5, _⟩ => ⟨S192x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S640000x192, .f32⟩
  | .hbm, ⟨10, _⟩ => ⟨S640000x64, .f32⟩
  | .hbm, ⟨11, _⟩ => ⟨S1x64, .f32⟩
  | .hbm, ⟨12, _⟩ => ⟨S640000x64, .f32⟩
  | .hbm, ⟨13, _⟩ => ⟨S640000x64, .f32⟩
  | .hbm, ⟨14, _⟩ => ⟨S_, .f32⟩
  | .hbm, ⟨15, _⟩ => ⟨S640000x64, .f32⟩
  | .hbm, ⟨16, _⟩ => ⟨S640000x64, .f32⟩
  | .hbm, ⟨17, _⟩ => ⟨S640000x64, .f32⟩
  | .hbm, ⟨18, _⟩ => ⟨S1x64, .f32⟩
  | .hbm, ⟨19, _⟩ => ⟨S640000x64, .f32⟩
  | .hbm, ⟨20, _⟩ => ⟨S640000x64, .f32⟩
  | .hbm, ⟨21, _⟩ => ⟨S640000x64, .f32⟩
  | _, _ => ⟨S640000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]

class Facts₀ : Prop where
  concatenates_S640000x64_S640000x64_S640000x64_S640000x192_d1 : Shape.Concatenates [S640000x64, S640000x64, S640000x64] S640000x192 1
  bcast_S64_S1x64_1 : S64.BroadcastsInDim S1x64 (![1] : Fin 1 → Fin S1x64.rank)
  bcast_S1x64_S640000x64_0_1 : S1x64.BroadcastsInDim S640000x64 (![0, 1] : Fin 2 → Fin S640000x64.rank)
  bcast_S_S640000x64 : S_.BroadcastsInDim S640000x64 (![] : Fin 0 → Fin S640000x64.rank)
  dot_S640000x192_S192x64_S640000x64_1_0_0_1_n_n_wf : DotDims.WF S640000x192 S192x64 S640000x64 [1] [0] [0] [1] [] []
  dot_S640000x64_S64x64_S640000x64_1_0_0_1_n_n_wf : DotDims.WF S640000x64 S64x64 S640000x64 [1] [0] [0] [1] [] []

variable [Facts₀]

def dot_S640000x192_S192x64_S640000x64_1_0_0_1_n_n : DotDims S640000x192 S192x64 S640000x64 where
  lhsContracting := [1]
  rhsContracting := [0]
  lhsNonContracting := [0]
  rhsNonContracting := [1]
  lhsBatch := []
  rhsBatch := []
  wf := dot_S640000x192_S192x64_S640000x64_1_0_0_1_n_n_wf
def dot_S640000x64_S64x64_S640000x64_1_0_0_1_n_n : DotDims S640000x64 S64x64 S640000x64 where
  lhsContracting := [1]
  rhsContracting := [0]
  lhsNonContracting := [0]
  rhsNonContracting := [1]
  lhsBatch := []
  rhsBatch := []
  wf := dot_S640000x64_S64x64_S640000x64_1_0_0_1_n_n_wf

class Facts : Prop extends Facts₀ where

variable [Facts]
-- ==== Proof.EdgeRow.lean ====
/-
  One edge of the message-passing layer, as a function of that edge's three feature rows.

  The layer lays an edge's source, destination and edge features end to end (192 numbers), applies an affine map to 64
  hidden units, clips them below at zero, applies a second affine map to 64 outputs and adds the edge's own features
  back.  Every output row depends on the three input rows OF THE SAME EDGE and on the weights only, which is why the
  layer can be computed a slab of edges at a time.  This file states that row function over the extended reals, and
  reads a three-piece concatenation along the feature axis at an index, for any number of rows.
-/
import Idealize.ShloMosaic.PureOps.Ideal
import Idealize.ShloMosaic.Lib.ValueIdx
import Idealize.ShloMosaic.Lib.Pipeline.Value

noncomputable section

namespace Cert.EdgeLayer

open Idealize.ShloMosaic Idealize.ShloMosaic.ValueIdx

/-- Three rows of 64 numbers laid end to end: position p reads the first row below 64, the second below 128, the
    third from there on. -/
def cat3 (a b c : Fin 64 → EReal) (p : Fin 192) : EReal :=
  if h : p.val < 64 then a ⟨p.val, h⟩
  else if h2 : p.val < 128 then b ⟨p.val - 64, by omega⟩
  else c ⟨p.val - 128, by have := p.isLt; omega⟩

/-- The hidden unit k of an edge: the affine map of the 192 concatenated features, clipped below at zero. -/
def hidden (xs xd xe : Fin 64 → EReal) (W1 : Fin 192 → Fin 64 → EReal) (b1 : Fin 64 → EReal) (k : Fin 64) : EReal :=
  max ((∑ p : Fin 192, cat3 xs xd xe p * W1 p k) + b1 k) 0

/-- Output j of an edge: the second affine map of the hidden units, plus the edge's own feature j. -/
def edgeRow (xs xd xe : Fin 64 → EReal) (W1 : Fin 192 → Fin 64 → EReal) (b1 : Fin 64 → EReal)
    (W2 : Fin 64 → Fin 64 → EReal) (b2 : Fin 64 → EReal) (j : Fin 64) : EReal :=
  ((∑ k : Fin 64, hidden xs xd xe W1 b1 k * W2 k j) + b2 j) + xe j

/-- The layer over M edges: row r of the result is `edgeRow` of rows r of the three feature arrays. -/
def layer {M : ℕ} (xs xd xe : (⟨2, ![M, 64]⟩ : Shape).Idx → EReal) (W1 : (⟨2, ![192, 64]⟩ : Shape).Idx → EReal)
    (b1 : Fin 64 → EReal) (W2 : (⟨2, ![64, 64]⟩ : Shape).Idx → EReal) (b2 : Fin 64 → EReal) :
    (⟨2, ![M, 64]⟩ : Shape).Idx → EReal :=
  fun i => edgeRow (fun q => xs (ix2 (i 0) q)) (fun q => xd (ix2 (i 0) q)) (fun q => xe (ix2 (i 0) q))
    (fun p k => W1 (ix2 p k)) b1 (fun k j => W2 (ix2 k j)) b2 (i 1)

/-- Three [M, 64] arrays concatenated along the feature axis, read at (r, p): row r of the three, laid end to end,
    at p. -/
theorem concat3_apply {M : ℕ} (a b c : (⟨2, ![M, 64]⟩ : Shape).Idx → EReal)
    (h : Shape.Concatenates [(⟨2, ![M, 64]⟩ : Shape), ⟨2, ![M, 64]⟩, ⟨2, ![M, 64]⟩] ⟨2, ![M, 192]⟩ 1)
    (r : Fin M) (p : Fin 192) :
    concatenate (⟨2, ![M, 192]⟩ : Shape) 1 [⟨⟨2, ![M, 64]⟩, a⟩, ⟨⟨2, ![M, 64]⟩, b⟩, ⟨⟨2, ![M, 64]⟩, c⟩] h (ix2 r p)
      = cat3 (fun q => a (ix2 r q)) (fun q => b (ix2 r q)) (fun q => c (ix2 r q)) p := by
  unfold cat3
  by_cases h1 : p.val < 64
  · rw [dif_pos h1]
    refine concatenate_apply_piece (t := ⟨2, ![M, 192]⟩) (1 : Fin 2) [⟨⟨2, ![M, 64]⟩, a⟩, ⟨⟨2, ![M, 64]⟩, b⟩, ⟨⟨2, ![M, 64]⟩, c⟩] h (ix2 r p) 0 (by show 0 < 3; omega) ⟨2, ![M, 64]⟩ a rfl rfl 0 rfl
      (ix2 r ⟨p.val, h1⟩) ?_ ?_
    · intro d hd
      match d with
      | ⟨0, _⟩ => rfl
      | ⟨1, _⟩ => exact absurd rfl hd
    · show 0 + p.val = p.val
      omega
  · rw [dif_neg h1]
    by_cases h2 : p.val < 128
    · rw [dif_pos h2]
      refine concatenate_apply_piece (t := ⟨2, ![M, 192]⟩) (1 : Fin 2) [⟨⟨2, ![M, 64]⟩, a⟩, ⟨⟨2, ![M, 64]⟩, b⟩, ⟨⟨2, ![M, 64]⟩, c⟩] h (ix2 r p) 1 (by show 1 < 3; omega) ⟨2, ![M, 64]⟩ b rfl rfl 64 rfl
        (ix2 r ⟨p.val - 64, by omega⟩) ?_ ?_
      · intro d hd
        match d with
        | ⟨0, _⟩ => rfl
        | ⟨1, _⟩ => exact absurd rfl hd
      · show 64 + (p.val - 64) = p.val
        omega
    · rw [dif_neg h2]
      refine concatenate_apply_piece (t := ⟨2, ![M, 192]⟩) (1 : Fin 2) [⟨⟨2, ![M, 64]⟩, a⟩, ⟨⟨2, ![M, 64]⟩, b⟩, ⟨⟨2, ![M, 64]⟩, c⟩] h (ix2 r p) 2 (by show 2 < 3; omega) ⟨2, ![M, 64]⟩ c rfl rfl 128 rfl
        (ix2 r ⟨p.val - 128, by have := p.isLt; omega⟩) ?_ ?_
      · intro d hd
        match d with
        | ⟨0, _⟩ => rfl
        | ⟨1, _⟩ => exact absurd rfl hd
      · show 128 + (p.val - 128) = p.val
        omega

end Cert.EdgeLayer

end
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.BlockLayer.lean ====
/-
  What the kernel body computes on one slab of 4000 edges.

  The body lays the slab's three feature blocks end to end, multiplies by the first weight matrix on the matrix unit
  (into a zero accumulator), adds the first bias row, clips at zero, multiplies by the second weight matrix, adds the
  second bias row and the slab's edge features.  At the exact instance a change of float format is the identity and
  a matrix product into zero is the plain sum over the contracted coordinate, so row p of the stored block is the
  layer's row function of rows p of the three blocks: the body is the layer on 4000 edges.
-/
import proofs.«151631_j84928683311958_1_alg».proof.Proof.Gen.KernelIdeal.Skeleton
import proofs.«151631_j84928683311958_1_alg».proof.Proof.EdgeRow
import proofs.«151631_j84928683311958_1_alg».proof.Proof.LibPlainDot
import Idealize.ShloMosaic.Lib.ValueLayout
import Idealize.ShloMosaic.PureOps.Ideal.Laws

noncomputable section

namespace Cert.EdgeLayer

open Cert.KernelIdeal Cert.KernelIdeal.Gen Idealize.ShloMosaic Idealize.ShloMosaic.ValueIdx

/-- The first product's dimension numbers are those of a plain [4000,192] by [192,64] product. -/
theorem dims1_eq : dot_S4000x192_S192x64_S4000x64_1_0_0_1_n_n = DotDims.plain 4000 192 64 := rfl

/-- The second product's dimension numbers are those of a plain [4000,64] by [64,64] product. -/
theorem dims2_eq : dot_S4000x64_S64x64_S4000x64_1_0_0_1_n_n = DotDims.plain 4000 64 64 := rfl

/-- A one-row bias block, passed through the identity cast and laid along every row, read at (p, k). -/
theorem biasRow_apply (b : Vec Ideal S1x64 .f32) (hc : S1x64.ShapeCasts S1x64) (hb : S1x64.Broadcasts S4000x64)
    (p : Fin 4000) (k : Fin 64) :
    broadcastTo S4000x64 (shapeCast S1x64 b hc) hb (ix2 p k) = b (ix2 (0 : Fin 1) k) := by
  rw [shapeCast_self]
  exact broadcastTo_1b_ab_apply b hb p k

/-- The stored block at (p, q): the layer's row function of rows p of the three feature blocks. -/
theorem pay_apply (x0 x1 x2 : Vec Ideal S4000x64 .f32) (w1 : Vec Ideal S192x64 .f32) (b1 : Vec Ideal S1x64 .f32)
    (w2 : Vec Ideal S64x64 .f32) (b2 : Vec Ideal S1x64 .f32) (p : Fin 4000) (q : Fin 64) :
    k0_pay1 (F := Ideal) x0 x1 x2 w1 b1 w2 b2 x2 (ix2 p q)
      = edgeRow (fun j => x0 (ix2 p j)) (fun j => x1 (ix2 p j)) (fun j => x2 (ix2 p j)) (fun a k => w1 (ix2 a k))
          (fun k => b1 (ix2 (0 : Fin 1) k)) (fun k j => w2 (ix2 k j)) (fun j => b2 (ix2 (0 : Fin 1) j)) q := by
  unfold k0_pay1 edgeRow
  dsimp only
  rw [addf_apply, addf_apply, biasRow_apply]
  refine congrArg₂ (· + ·) (congrArg₂ (· + ·) ?_ rfl) rfl
  rw [dims2_eq]
  refine (plain_matmul_zero_apply none _ _ (ix2 p q)).trans ?_
  refine Finset.sum_congr rfl fun k _ => ?_
  refine congrArg₂ (· * ·) ?_ rfl
  unfold hidden
  rw [truncf_apply, maximumf_apply, addf_apply, biasRow_apply, broadcast_apply]
  refine congrArg₂ max (congrArg₂ (· + ·) ?_ rfl) Ideal.ofBits_zero_f32
  rw [dims1_eq]
  refine (plain_matmul_zero_apply none _ _ (ix2 p k)).trans ?_
  refine Finset.sum_congr rfl fun a _ => ?_
  refine congrArg₂ (· * ·) ?_ rfl
  rw [truncf_apply]
  exact concat3_apply x0 x1 x2 concatenates_S4000x64_S4000x64_S4000x64_S4000x192_d1 p a

/-- The kernel body's stored block is the layer on the slab's 4000 edges. -/
theorem pay_eq_layer (x0 x1 x2 : Vec Ideal S4000x64 .f32) (w1 : Vec Ideal S192x64 .f32) (b1 : Vec Ideal S1x64 .f32)
    (w2 : Vec Ideal S64x64 .f32) (b2 : Vec Ideal S1x64 .f32) :
    k0_pay1 (F := Ideal) x0 x1 x2 w1 b1 w2 b2 x2
      = layer x0 x1 x2 w1 (fun k => b1 (ix2 (0 : Fin 1) k)) w2 (fun j => b2 (ix2 (0 : Fin 1) j)) := by
  funext i
  obtain ⟨p, q, rfl⟩ : ∃ (p : Fin 4000) (q : Fin 64), i = ix2 p q := ⟨i 0, i 1, eq_ix2 i⟩
  exact pay_apply x0 x1 x2 w1 b1 w2 b2 p q

end Cert.EdgeLayer

end
-- ==== Proof.KernelLayer.lean ====
/-
  From slabs to the whole array: the kernel computes the layer on all 640000 edges.

  Grid point t stages rows 4000·t … 4000·t + 3999 of the three feature arrays, the whole of the two weight matrices
  and the two bias rows (the biases reshaped to one row by the host before the launch), and writes rows
  4000·t … 4000·t + 3999 of the result.  Since an output row of the layer depends on the same row of the inputs only,
  what point t writes back is block t of the layer of the whole arrays; the 160 blocks tile the 640000 rows (row r is
  in block r / 4000), so the result array ends holding the layer of the argument arrays.
-/
import proofs.«151631_j84928683311958_1_alg».proof.Proof.Gen.KernelIdeal.Value
import proofs.«151631_j84928683311958_1_alg».proof.Proof.BlockLayer
import Idealize.ShloMosaic.Lib.Pipeline.Value
import Idealize.ShloMosaic.Lib.ValueLayout
import Idealize.ShloMosaic.Lib.StableHlo.Run
import Idealize.ShloMosaic.Lib.Tactic

noncomputable section

namespace Cert.EdgeLayer.Kernel

open Cert.KernelIdeal Cert.KernelIdeal.Gen Idealize.ShloMosaic Idealize.ShloMosaic.TcCoe Idealize.SL.Sem
open Idealize.ShloMosaic.ValueIdx
open Idealize.ShloMosaic.Pipeline (Dat)
open Cert.EdgeLayer

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 160 grid points: the three feature windows and the result window are at block
    (t, 0), the weight and bias windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row p of grid point t's slab is row 4000·t + p of the array. -/
def rowAt (t : Fin cfg0.N) (p : Fin 4000) : Fin 640000 :=
  ⟨4000 * t.val + p.val, by have h : cfg0.N = 160 := N_0; have := t.isLt; have := p.isLt; omega⟩

/-! ## The arrays as the region finds them -/

/-- The first bias as the region finds it: the argument, reshaped to one row by the host. -/
theorem bias1_apply (c : Dev nD) (k : Fin 64) :
    (V m c main_v0 : S1x64.Idx → EReal) (ix2 (0 : Fin 1) k) = (m ((c : Thread nD τ).loc main_arg6) : S64.Idx → EReal) (ix1 k) := by
  have e : (V m c main_v0 : S1x64.Idx → EReal) = shapeCast S1x64 (m ((c : Thread nD τ).loc main_arg6) : S64.Idx → EReal) shapeCasts_S64_S1x64 := by
    dsimp only [V, hostOps0]; after_results; rfl
  rw [e]
  exact shapeCast_a_1a_apply _ _ 0 k

/-- The second bias as the region finds it. -/
theorem bias2_apply (c : Dev nD) (k : Fin 64) :
    (V m c main_v1 : S1x64.Idx → EReal) (ix2 (0 : Fin 1) k) = (m ((c : Thread nD τ).loc main_arg8) : S64.Idx → EReal) (ix1 k) := by
  have e : (V m c main_v1 : S1x64.Idx → EReal) = shapeCast S1x64 (m ((c : Thread nD τ).loc main_arg8) : S64.Idx → EReal) shapeCasts_S64_S1x64 := by
    dsimp only [V, hostOps0]; after_results; rfl
  rw [e]
  exact shapeCast_a_1a_apply _ _ 0 k

/-! ## The windows' blocks as rows of their arrays -/

/-- Point t's block of the source features at (p, j) is the array at (4000·t + p, j). -/
theorem src_apply (c : Dev nD) (t : Fin cfg0.N) (p : Fin 4000) (j : Fin 64) :
    (iblk m c 0 t : Vec Ideal S4000x64 .f32) (ix2 p j) = (m ((c : Thread nD τ).loc main_arg0) : S640000x64.Idx → EReal) (ix2 (rowAt t p) j) := by
  refine Eq.trans ?_ (congrFun (V_main_arg0 m c) (ix2 (rowAt t p) j))
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 4000 + 1 * p.val = 4000 * t.val + p.val; rw [e0]; omega
  | ⟨1, _⟩ => show win0_0.index t (1 : Fin 2) * 64 + 1 * j.val = j.val; rw [e1]; omega

/-- Point t's block of the destination features at (p, j) is the array at (4000·t + p, j). -/
theorem dest_apply (c : Dev nD) (t : Fin cfg0.N) (p : Fin 4000) (j : Fin 64) :
    (iblk m c 1 t : Vec Ideal S4000x64 .f32) (ix2 p j) = (m ((c : Thread nD τ).loc main_arg1) : S640000x64.Idx → EReal) (ix2 (rowAt t p) j) := by
  refine Eq.trans ?_ (congrFun (V_main_arg1 m c) (ix2 (rowAt t p) j))
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 4000 + 1 * p.val = 4000 * t.val + p.val; rw [e0]; omega
  | ⟨1, _⟩ => show win0_1.index t (1 : Fin 2) * 64 + 1 * j.val = j.val; rw [e1]; omega

/-- Point t's block of the edge features at (p, j) is the array at (4000·t + p, j). -/
theorem edge_apply (c : Dev nD) (t : Fin cfg0.N) (p : Fin 4000) (j : Fin 64) :
    (iblk m c 2 t : Vec Ideal S4000x64 .f32) (ix2 p j) = (m ((c : Thread nD τ).loc main_arg2) : S640000x64.Idx → EReal) (ix2 (rowAt t p) j) := by
  refine Eq.trans ?_ (congrFun (V_main_arg2 m c) (ix2 (rowAt t p) j))
  obtain ⟨-, -, -, -, e0, e1, -⟩ := idx_facts t
  unfold iblk
  rw [View.read_apply]
  show V m c main_arg2 _ = V m c main_arg2 _
  congr 1
  funext a
  apply Fin.ext
  match a with
  | ⟨0, _⟩ => show win0_2.index t (0 : Fin 2) * 4000 + 1 * p.val = 4000 * t.val + p.val; rw [e0]; omega
  | ⟨1, _⟩ => show win0_2.index t (1 : Fin 2) * 64 + 1 * j.val = j.val; rw [e1]; omega

/-- Every point's block of the first weights is the whole matrix. -/
theorem w1_apply (c : Dev nD) (t : Fin cfg0.N) (a : Fin 192) (k : Fin 64) :
    (iblk m c 3 t : Vec Ideal S192x64 .f32) (ix2 a k) = (m ((c : Thread nD τ).loc main_arg5) : S192x64.Idx → EReal) (ix2 a k) := by
  refine Eq.trans ?_ (congrFun (V_main_arg5 m c) (ix2 a k))
  obtain ⟨-, -, -, -, -, -, e0, e1, -⟩ := idx_facts t
  unfold iblk
  rw [View.read_apply]
  show V m c main_arg5 _ = V m c main_arg5 _
  congr 1
  funext d
  apply Fin.ext
  match d with
  | ⟨0, _⟩ => show win0_3.index t (0 : Fin 2) * 192 + 1 * a.val = a.val; rw [e0]; omega
  | ⟨1, _⟩ => show win0_3.index t (1 : Fin 2) * 64 + 1 * k.val = k.val; rw [e1]; omega

/-- Every point's block of the first bias row is the row. -/
theorem b1_apply (c : Dev nD) (t : Fin cfg0.N) (k : Fin 64) :
    (iblk m c 4 t : Vec Ideal S1x64 .f32) (ix2 (0 : Fin 1) k) = (m ((c : Thread nD τ).loc main_arg6) : S64.Idx → EReal) (ix1 k) := by
  refine Eq.trans ?_ (bias1_apply m c k)
  obtain ⟨-, -, -, -, -, -, -, -, e0, e1, -⟩ := idx_facts t
  unfold iblk
  rw [View.read_apply]
  show V m c main_v0 _ = V m c main_v0 _
  congr 1
  funext d
  apply Fin.ext
  match d with
  | ⟨0, _⟩ => show win0_4.index t (0 : Fin 2) * 1 + 1 * 0 = 0; rw [e0]
  | ⟨1, _⟩ => show win0_4.index t (1 : Fin 2) * 64 + 1 * k.val = k.val; rw [e1]; omega

/-- Every point's block of the second weights is the whole matrix. -/
theorem w2_apply (c : Dev nD) (t : Fin cfg0.N) (k j : Fin 64) :
    (iblk m c 5 t : Vec Ideal S64x64 .f32) (ix2 k j) = (m ((c : Thread nD τ).loc main_arg7) : S64x64.Idx → EReal) (ix2 k j) := by
  refine Eq.trans ?_ (congrFun (V_main_arg7 m c) (ix2 k j))
  obtain ⟨-, -, -, -, -, -, -, -, -, -, e0, e1, -⟩ := idx_facts t
  unfold iblk
  rw [View.read_apply]
  show V m c main_arg7 _ = V m c main_arg7 _
  congr 1
  funext d
  apply Fin.ext
  match d with
  | ⟨0, _⟩ => show win0_5.index t (0 : Fin 2) * 64 + 1 * k.val = k.val; rw [e0]; omega
  | ⟨1, _⟩ => show win0_5.index t (1 : Fin 2) * 64 + 1 * j.val = j.val; rw [e1]; omega

/-- Every point's block of the second bias row is the row. -/
theorem b2_apply (c : Dev nD) (t : Fin cfg0.N) (k : Fin 64) :
    (iblk m c 6 t : Vec Ideal S1x64 .f32) (ix2 (0 : Fin 1) k) = (m ((c : Thread nD τ).loc main_arg8) : S64.Idx → EReal) (ix1 k) := by
  refine Eq.trans ?_ (bias2_apply m c k)
  obtain ⟨-, -, -, -, -, -, -, -, -, -, -, -, e0, e1, -⟩ := idx_facts t
  unfold iblk
  rw [View.read_apply]
  show V m c main_v1 _ = V m c main_v1 _
  congr 1
  funext d
  apply Fin.ext
  match d with
  | ⟨0, _⟩ => show win0_6.index t (0 : Fin 2) * 1 + 1 * 0 = 0; rw [e0]
  | ⟨1, _⟩ => show win0_6.index t (1 : Fin 2) * 64 + 1 * k.val = k.val; rw [e1]; omega

/-! ## The result array -/

/-- The layer of the argument arrays: what the result array ends holding. -/
def result (c : Dev nD) : S640000x64.Idx → EReal :=
  layer (M := 640000) (m ((c : Thread nD τ).loc main_arg0)) (m ((c : Thread nD τ).loc main_arg1)) (m ((c : Thread nD τ).loc main_arg2))
    (m ((c : Thread nD τ).loc main_arg5)) (fun k => (m ((c : Thread nD τ).loc main_arg6) : S64.Idx → EReal) (ix1 k))
    (m ((c : Thread nD τ).loc main_arg7)) (fun j => (m ((c : Thread nD τ).loc main_arg8) : S64.Idx → EReal) (ix1 j))

/-- The result window's block at point t, at (p, q), sits at (4000·t + p, q) of the array. -/
theorem out_emb (t : Fin cfg0.N) (p : Fin 4000) (q : Fin 64) :
    ((cfg0.win 7).blk t).view.emb (ix2 p q : S4000x64.Idx) = (ix2 (rowAt t p) q : S640000x64.Idx) := by
  obtain ⟨-, -, -, -, -, -, -, -, -, -, -, -, -, -, e0, e1⟩ := idx_facts t
  funext a
  apply Fin.ext
  match a with
  | ⟨0, _⟩ => show win0_7.index t (0 : Fin 2) * 4000 + 1 * p.val = 4000 * t.val + p.val; rw [e0]; omega
  | ⟨1, _⟩ => show win0_7.index t (1 : Fin 2) * 64 + 1 * q.val = q.val; rw [e1]; omega

/-- WHAT POINT t WRITES BACK is block t of the layer of the argument arrays. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero hz]
  simp only [View.ld_unit_zero (S := S4000x64) hz, View.ld_unit_zero (S := S192x64) hz, View.ld_unit_zero (S := S1x64) hz,
    View.ld_unit_zero (S := S64x64) hz]
  rw [pay_eq_layer]
  funext y
  obtain ⟨p, q, rfl⟩ : ∃ (p : Fin 4000) (q : Fin 64), y = ix2 p q := ⟨y 0, y 1, eq_ix2 y⟩
  show layer (M := 4000) (iblk m c 0 t) (iblk m c 1 t) (iblk m c 2 t) (iblk m c 3 t) (fun k => (iblk m c 4 t : Vec Ideal S1x64 .f32) (ix2 (0 : Fin 1) k))
      (iblk m c 5 t) (fun j => (iblk m c 6 t : Vec Ideal S1x64 .f32) (ix2 (0 : Fin 1) j)) (ix2 p q)
    = result m c (((cfg0.win 7).blk t).view.emb (ix2 p q : S4000x64.Idx))
  rw [out_emb]
  unfold result layer
  show edgeRow (fun j => (iblk m c 0 t : Vec Ideal S4000x64 .f32) (ix2 p j)) (fun j => (iblk m c 1 t : Vec Ideal S4000x64 .f32) (ix2 p j))
      (fun j => (iblk m c 2 t : Vec Ideal S4000x64 .f32) (ix2 p j)) (fun a k => (iblk m c 3 t : Vec Ideal S192x64 .f32) (ix2 a k))
      (fun k => (iblk m c 4 t : Vec Ideal S1x64 .f32) (ix2 (0 : Fin 1) k)) (fun k j => (iblk m c 5 t : Vec Ideal S64x64 .f32) (ix2 k j))
      (fun j => (iblk m c 6 t : Vec Ideal S1x64 .f32) (ix2 (0 : Fin 1) j)) q
    = edgeRow (fun j => (m ((c : Thread nD τ).loc main_arg0) : S640000x64.Idx → EReal) (ix2 (rowAt t p) j))
      (fun j => (m ((c : Thread nD τ).loc main_arg1) : S640000x64.Idx → EReal) (ix2 (rowAt t p) j))
      (fun j => (m ((c : Thread nD τ).loc main_arg2) : S640000x64.Idx → EReal) (ix2 (rowAt t p) j))
      (fun a k => (m ((c : Thread nD τ).loc main_arg5) : S192x64.Idx → EReal) (ix2 a k))
      (fun k => (m ((c : Thread nD τ).loc main_arg6) : S64.Idx → EReal) (ix1 k))
      (fun k j => (m ((c : Thread nD τ).loc main_arg7) : S64x64.Idx → EReal) (ix2 k j))
      (fun j => (m ((c : Thread nD τ).loc main_arg8) : S64.Idx → EReal) (ix1 j)) q
  simp only [src_apply, dest_apply, edge_apply, w1_apply, b1_apply, w2_apply, b2_apply]

/-- Row r of the array is in the block of point r / 4000. -/
theorem covered (i : S640000x64.Idx) :
    ∃ t : Fin cfg0.N, (cfg0.win 7).flush t = true ∧ i ∈ ((cfg0.win 7).blk t).view.set := by
  have hN : cfg0.N = 160 := N_0
  have hi0 : (i 0).val < 640000 := (i 0).isLt
  have hi1 : (i 1).val < 64 := (i 1).isLt
  let t : Fin cfg0.N := ⟨(i 0).val / 4000, by omega⟩
  obtain ⟨-, -, -, -, -, -, -, -, -, -, -, -, -, -, e0, e1⟩ := idx_facts t
  have ht : t.val = (i 0).val / 4000 := rfl
  refine ⟨t, flush0_7 t, ?_⟩
  show i ∈ ((View.whole main_v2).slice (win0_7.rect t)).set
  rw [View.set_slice_whole, Rect.mem_set_unit]
  intro a
  match a with
  | ⟨0, _⟩ =>
    show win0_7.index t (0 : Fin 2) * 4000 ≤ (i 0).val ∧ (i 0).val < win0_7.index t (0 : Fin 2) * 4000 + 4000
    rw [e0, ht]; omega
  | ⟨1, _⟩ =>
    show win0_7.index t (1 : Fin 2) * 64 ≤ (i 1).val ∧ (i 1).val < win0_7.index t (1 : Fin 2) * 64 + 64
    rw [e1]; omega

/-- THE ARRAY after the run is the layer of the argument arrays. -/
theorem final (c : Dev nD) : (dats m 0 c).arrAt 7 cfg0.N = result m c :=
  (dats m 0 c).arrAt_eq_of_cover 7 (result m c) (fun t _ => flushed_eq m c t) covered

/-- The run, read: the result array at the layer of the argument arrays, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final m c), (h c).2⟩) (Cert.KernelIdeal.Value.run_blocks m ρ)

end Cert.EdgeLayer.Kernel

end
-- ==== Proof.RefLayer.lean ====
/-
  The reference computes the layer on all 640000 edges.

  Read one operation at a time, the reference's result at (r, q) is: the sum over the 64 hidden units of
  (the clipped affine map of row r of the concatenated features) times the second weight, plus the second bias at q,
  plus the edge feature at (r, q).  The contraction indices of its two products, and the indices its bias broadcasts
  read, are coordinates (r, ·), (·, q) and (·): after naming them the term is the layer's row function of rows r of
  the three feature arrays.
-/
import proofs.«151631_j84928683311958_1_alg».proof.Proof.Gen.ReferenceIdeal.Read
import proofs.«151631_j84928683311958_1_alg».proof.Proof.EdgeRow
import Idealize.ShloMosaic.PureOps.Ideal.Laws

noncomputable section

namespace Cert.EdgeLayer.Reference

open Cert.ReferenceIdeal Cert.ReferenceIdeal.Gen Cert.ReferenceIdeal.Read Idealize.ShloMosaic Idealize.ShloMosaic.ValueIdx
open Cert.EdgeLayer

/-- The second product reads its left operand at (r, k); -/
theorem lidx6 (r : Fin 640000) (q k : Fin 64) : lidx_main_v6 (ix2 r q) k = ix2 r k :=
  funext fun a => Fin.ext (by match a with | ⟨0, _⟩ => rfl | ⟨1, _⟩ => rfl)
/-- and its right operand at (k, q). -/
theorem ridx6 (r : Fin 640000) (q k : Fin 64) : ridx_main_v6 (ix2 r q) k = ix2 k q :=
  funext fun a => Fin.ext (by match a with | ⟨0, _⟩ => rfl | ⟨1, _⟩ => rfl)
/-- The first product reads its left operand at (r, p); -/
theorem lidx1 (r : Fin 640000) (k : Fin 64) (p : Fin 192) : lidx_main_v1 (ix2 r k) p = ix2 r p :=
  funext fun a => Fin.ext (by match a with | ⟨0, _⟩ => rfl | ⟨1, _⟩ => rfl)
/-- and its right operand at (p, k). -/
theorem ridx1 (r : Fin 640000) (k : Fin 64) (p : Fin 192) : ridx_main_v1 (ix2 r k) p = ix2 p k :=
  funext fun a => Fin.ext (by match a with | ⟨0, _⟩ => rfl | ⟨1, _⟩ => rfl)
/-- The first bias, broadcast to a row and then down the rows, is read at k; -/
theorem bidx1 (r : Fin 640000) (k : Fin 64) : idx_main_v2 (idx_main_v3 (ix2 r k)) = ix1 k :=
  funext fun a => Fin.ext (by match a with | ⟨0, _⟩ => rfl)
/-- the second at q. -/
theorem bidx2 (r : Fin 640000) (q : Fin 64) : idx_main_v7 (idx_main_v8 (ix2 r q)) = ix1 q :=
  funext fun a => Fin.ext (by match a with | ⟨0, _⟩ => rfl)

/-- A hidden unit of the reference at (r, k). -/
theorem hidden_apply (x0 x1 x2 : FVec Ideal S640000x64 .f32) (x5 : FVec Ideal S192x64 .f32) (x6 : FVec Ideal S64 .f32)
    (r : Fin 640000) (k : Fin 64) :
    val_main_v5 (F := Ideal) x0 x1 x2 x5 x6 (ix2 r k)
      = hidden (fun j => x0 (ix2 r j)) (fun j => x1 (ix2 r j)) (fun j => x2 (ix2 r j)) (fun a k => x5 (ix2 a k))
          (fun k => x6 (ix1 k)) k := by
  rw [val_main_v5_apply, val_main_v4_apply, val_main_v1_apply, val_main_v3_apply, val_main_v2_apply,
    val_main_call0_v0_apply, val_main_call0_cst_apply, bidx1]
  unfold hidden
  refine congrArg₂ max (congrArg₂ (· + ·) ?_ rfl) Ideal.ofBits_zero_f32
  refine Finset.sum_congr rfl fun p _ => ?_
  rw [lidx1, ridx1]
  refine congrArg₂ (· * ·) ?_ rfl
  unfold val_main_v0
  exact concat3_apply x0 x1 x2 _ r p

/-- The reference's result is the layer on the 640000 edges. -/
theorem result_eq_layer (x0 x1 x2 : FVec Ideal S640000x64 .f32) (x5 : FVec Ideal S192x64 .f32) (x6 : FVec Ideal S64 .f32)
    (x7 : FVec Ideal S64x64 .f32) (x8 : FVec Ideal S64 .f32) :
    val_main_v10 (F := Ideal) x0 x1 x2 x5 x6 x7 x8
      = layer x0 x1 x2 x5 (fun k => x6 (ix1 k)) x7 (fun j => x8 (ix1 j)) := by
  funext i
  obtain ⟨r, q, rfl⟩ : ∃ (r : Fin 640000) (q : Fin 64), i = ix2 r q := ⟨i 0, i 1, eq_ix2 i⟩
  rw [val_main_v10_apply, val_main_v9_apply, val_main_v6_apply, val_main_v8_apply, val_main_v7_apply, bidx2]
  show _ = edgeRow _ _ _ _ _ _ _ q
  unfold edgeRow
  refine congrArg₂ (· + ·) (congrArg₂ (· + ·) ?_ rfl) rfl
  refine Finset.sum_congr rfl fun k _ => ?_
  rw [lidx6, ridx6, hidden_apply]

end Cert.EdgeLayer.Reference

end
-- ==== Proof.lean ====
/-
  The edge layer of a message-passing network, a slab of 4000 edges at a time, against the same layer on all edges.

  Over the extended reals both programs compute, for every edge r and output feature q,

      ( Σ_k  max( Σ_p X[r,p]·W1[p,k] + b1[k], 0 ) · W2[k,q]  +  b2[q] )  +  edge_attr[r,q],

  where row r of X is the edge's source, destination and edge features laid end to end.  The kernel's narrowing of
  the matrix operands to bf16 is the identity on exact values and its matrix products accumulate into zero, so
  its slab computation is this formula restricted to the slab's rows (Proof/BlockLayer.lean), and because an output
  row reads the same input row only, the 160 slabs assemble to the formula on the whole arrays
  (Proof/KernelLayer.lean).  The reference is the formula read one operation at a time (Proof/RefLayer.lean).  No
  algebraic law beyond naming the indices joins the two sides: both are the same sums of the same products in the
  same grouping, so the finiteness of the inputs is never used.
-/
import proofs.«151631_j84928683311958_1_alg».proof.Defs
import proofs.«151631_j84928683311958_1_alg».proof.Proof.Gen.Kernel
import proofs.«151631_j84928683311958_1_alg».proof.Proof.Gen.Kernel.Skeleton
import proofs.«151631_j84928683311958_1_alg».proof.Proof.Gen.Kernel.Launch
import proofs.«151631_j84928683311958_1_alg».proof.Proof.Gen.Kernel.Points
import proofs.«151631_j84928683311958_1_alg».proof.Proof.Gen.Kernel.Frame
import proofs.«151631_j84928683311958_1_alg».proof.Proof.Gen.KernelIdeal
import proofs.«151631_j84928683311958_1_alg».proof.Proof.Gen.KernelIdeal.Skeleton
import proofs.«151631_j84928683311958_1_alg».proof.Proof.Gen.KernelIdeal.Launch
import proofs.«151631_j84928683311958_1_alg».proof.Proof.Gen.KernelIdeal.Points
import proofs.«151631_j84928683311958_1_alg».proof.Proof.Gen.KernelIdeal.Frame
import proofs.«151631_j84928683311958_1_alg».proof.Proof.Gen.ReferenceIdeal
import proofs.«151631_j84928683311958_1_alg».proof.Proof.Gen.Pre_finite_inputs
import proofs.«151631_j84928683311958_1_alg».proof.Proof.Gen.KernelIdeal.Value
import proofs.«151631_j84928683311958_1_alg».proof.Proof.Gen.ReferenceIdeal.Run
import proofs.«151631_j84928683311958_1_alg».proof.Proof.Gen.ReferenceIdeal.Read
import proofs.«151631_j84928683311958_1_alg».proof.Proof.KernelLayer
import proofs.«151631_j84928683311958_1_alg».proof.Proof.RefLayer
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read at exact values. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the layer of the argument arrays: the kernel's result array by its 160 slabs, the
    reference's by its operations read at an index; the arguments agree, so the two arrays are one. -/
theorem algebraic : Cert.algebraic_KernelIdeal_ReferenceIdeal := by
  intro m ρ m' ρ' _ hagree
  refine ⟨fun c => Cert.EdgeLayer.Kernel.result m c, Cert.EdgeLayer.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.EdgeLayer.Reference.result_eq_layer]
  obtain ⟨h0, h1, h2, -, -, h5, h6, h7, h8⟩ := hagree c
  rw [h0, h1, h2, h5, h6, h7, h8]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
